-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x128 : Shape := ⟨3, ![2, 1024, 128]⟩
abbrev S32x1024x1024 : Shape := ⟨3, ![32, 1024, 1024]⟩
abbrev S_ : Shape := ⟨0, ![]⟩

class Facts : Prop where
  bcast_S_S2x1024x128 : S_.BroadcastsInDim S2x1024x128 (![] : Fin 0 → Fin S2x1024x128.rank)
  reducesTo_S2x1024x128_S_d0_1_2 : S2x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S2x1024x128 .f32) (main_arg1 : FVec F S32x1024x1024 .f32) : IVec S_ 1 :=
  let main_v0 : FVec F S2x1024x128 .f32 := Host.absf main_arg0
  let main_cst : FVec F S_ .f32 := constant S_ .f32 0x7F800000#32
  let main_v1 : FVec F S2x1024x128 .f32 := broadcastInDim S2x1024x128 ![] bcast_S_S2x1024x128 main_cst
  let main_v2 : IVec S2x1024x128 1 := cmpf .olt main_v0 main_v1
  let main_c : IVec S_ 1 := constantI S_ 1 1#1
  let main_v3 : IVec S_ 1 := (fun x v => Host.reduce IntOp.andi x v reducesTo_S2x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S2x1024x128 : Shape := ⟨3, ![2, 1024, 128]⟩
abbrev S32x1024x1024 : Shape := ⟨3, ![32, 1024, 1024]⟩
abbrev S2x1024x1024 : Shape := ⟨3, ![2, 1024, 1024]⟩
abbrev S1x1024x128 : Shape := ⟨3, ![1, 1024, 128]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩
abbrev S2x1024x32x1024 : Shape := ⟨4, ![2, 1024, 32, 1024]⟩
abbrev S1x64x1024 : Shape := ⟨3, ![1, 64, 1024]⟩
abbrev S32x64x1024 : Shape := ⟨3, ![32, 64, 1024]⟩
abbrev S1x64x32x1024 : Shape := ⟨4, ![1, 64, 32, 1024]⟩
abbrev S64x1024 : Shape := ⟨2, ![64, 1024]⟩
abbrev S64x32x1024 : Shape := ⟨3, ![64, 32, 1024]⟩
abbrev S64x1x1024 : Shape := ⟨3, ![64, 1, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2x1024x128, .f32⟩
  | .hbm, ⟨1, _⟩ => ⟨S32x1024x1024, .f32⟩
  | .hbm, ⟨2, _⟩ => ⟨S2x1024x1024, .f32⟩
  | .hbm, ⟨3, _⟩ => ⟨S2x1024x32x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x64x1024, .f32⟩
  | .local _ .vmem, ⟨5, _⟩ => ⟨S1x64x1024, .f32⟩
  | .local _ .vmem, ⟨6, _⟩ => ⟨S32x64x1024, .f32⟩
  | .local _ .vmem, ⟨7, _⟩ => ⟨S32x64x1024, .f32⟩
  | .local _ .vmem, ⟨8, _⟩ => ⟨S1x64x32x1024, .f32⟩
  | .local _ .vmem, ⟨9, _⟩ => ⟨S1x64x32x1024, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x64x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S32x64x1024_S32x64x1024_0_0_0 : ∀ a, (![0, 0, 0] : Fin 3 → Nat) a + S32x64x1024.size a ≤ S32x64x1024.size a
  h_S32x64x1024 : 0 < S32x64x1024.numel
  transposes_S32x64x1024_p1_0_2_S64x32x1024 : S32x64x1024.Transposes [1, 0, 2] S64x32x1024
  shapeCasts_S64x1024_S64x1x1024 : S64x1024.ShapeCasts S64x1x1024
  broadcasts_S64x1x1024_S64x32x1024 : S64x1x1024.Broadcasts S64x32x1024
  inb_S1x64x32x1024_S1x64x32x1024_0_0_0_0 : ∀ a, (![0, 0, 0, 0] : Fin 4 → Nat) a + S1x64x32x1024.size a ≤ S1x64x32x1024.size a
  h_S1x64x32x1024 : 0 < S1x64x32x1024.numel
  shapeCasts_S1x64x32x1024_S64x32x1024 : S1x64x32x1024.ShapeCasts S64x32x1024
  shapeCasts_S64x32x1024_S1x64x32x1024 : S64x32x1024.ShapeCasts S1x64x32x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S2x1024x128.size a
  hwx0_0 : ∀ i : grid0.Coords, EltTy.bits .f32 = 32 ∨ (Rect.block (s := S2x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S2x1024x1024.size a
  hwx1_0 : ∀ i : grid1.Coords, EltTy.bits .f32 = 32 ∨ (Rect.block (s := S2x1024x1024) S1x64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x1024.size a ≤ S32x1024x1024.size a
  hwx1_1 : ∀ i : grid1.Coords, EltTy.bits .f32 = 32 ∨ (Rect.block (s := S32x1024x1024) S32x64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x32x1024.size a ≤ S2x1024x32x1024.size a
  hwx1_2 : ∀ i : grid1.Coords, EltTy.bits .f32 = 32 ∨ (Rect.block (s := S2x1024x32x1024) S1x64x32x1024.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64x32x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x1024x128 : Shape := ⟨3, ![2, 1024, 128]⟩
abbrev S32x1024x1024 : Shape := ⟨3, ![32, 1024, 1024]⟩
abbrev S2x1024x1024 : Shape := ⟨3, ![2, 1024, 1024]⟩
abbrev S2x1024x1x1024 : Shape := ⟨4, ![2, 1024, 1, 1024]⟩
abbrev S1x32x1024x1024 : Shape := ⟨4, ![1, 32, 1024, 1024]⟩
abbrev S1x1024x32x1024 : Shape := ⟨4, ![1, 1024, 32, 1024]⟩
abbrev S2x1024x32x1024 : Shape := ⟨4, ![2, 1024, 32, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S32x1024x1024, .f32⟩
  | .hbm, ⟨2, _⟩ => ⟨S2x1024x1024, .f32⟩
  | .hbm, ⟨3, _⟩ => ⟨S2x1024x1x1024, .f32⟩
  | .hbm, ⟨4, _⟩ => ⟨S1x32x1024x1024, .f32⟩
  | .hbm, ⟨5, _⟩ => ⟨S1x1024x32x1024, .f32⟩
  | .hbm, ⟨6, _⟩ => ⟨S2x1024x32x1024, .f32⟩
  | .hbm, ⟨7, _⟩ => ⟨S2x1024x32x1024, .f32⟩
  | .hbm, ⟨8, _⟩ => ⟨S2x1024x32x1024, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S2x1024x1024_S2x1024x1x1024_0_1_3 : S2x1024x1024.BroadcastsInDim S2x1024x1x1024 (![0, 1, 3] : Fin 3 → Fin S2x1024x1x1024.rank)
  bcast_S32x1024x1024_S1x32x1024x1024_1_2_3 : S32x1024x1024.BroadcastsInDim S1x32x1024x1024 (![1, 2, 3] : Fin 3 → Fin S1x32x1024x1024.rank)
  transposes_S1x32x1024x1024_S1x1024x32x1024_0_2_1_3 : S1x32x1024x1024.Transposes [0, 2, 1, 3] S1x1024x32x1024
  bcast_S2x1024x1x1024_S2x1024x32x1024_0_1_2_3 : S2x1024x1x1024.BroadcastsInDim S2x1024x32x1024 (![0, 1, 2, 3] : Fin 4 → Fin S2x1024x32x1024.rank)
  bcast_S1x1024x32x1024_S2x1024x32x1024_0_1_2_3 : S1x1024x32x1024.BroadcastsInDim S2x1024x32x1024 (![0, 1, 2, 3] : Fin 4 → Fin S2x1024x32x1024.rank)
  dot_S2x1024x128_S2x1024x128_S2x1024x1024_2_2_1_1_0_0_wf : DotDims.WF S2x1024x128 S2x1024x128 S2x1024x1024 [2] [2] [1] [1] [0] [0]

variable [Facts₀]

def dot_S2x1024x128_S2x1024x128_S2x1024x1024_2_2_1_1_0_0 : DotDims S2x1024x128 S2x1024x128 S2x1024x1024 where
  lhsContracting := [2]
  rhsContracting := [2]
  lhsNonContracting := [1]
  rhsNonContracting := [1]
  lhsBatch := [0]
  rhsBatch := [0]
  wf := dot_S2x1024x128_S2x1024x128_S2x1024x1024_2_2_1_1_0_0_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Payload.lean ====
/-
  What each kernel body stores, read at one entry, over the extended reals.

  The first body loads a [1, 1024, 128] block x (one batch's features), views it as the 1024×128 matrix A, and stores A·Aᵀ
  accumulated into a zero block: entry (s, o) of the stored block is Σ_c x[0, s, c] · x[0, o, c]  (`gramBlock_apply`).
  The transposed factor read at (c, o) is A at (o, c); the leading unit axis is dropped on the way in and added on the way out.

  The second body loads a [1, 64, 1024] block g and a [32, 64, 1024] block ρ, swaps ρ's first two axes, repeats g along a new
  middle axis of length 32, and stores the product: entry (p, r, o) of the stored block is g[0, p, o] · ρ[r, p, o]
  (`scoreBlock_apply`).
-/
import proofs.«171802_j15040975470743_1_alg».proof.Proof.Gen.KernelIdeal.Skeleton
import proofs.«171802_j15040975470743_1_alg».proof.Proof.LibSideBySide
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-- The zero offsets of a rank-3 and of a rank-4 block, as constant functions. -/
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A [1, 1024, 128] block viewed as a 1024×128 matrix reads (s, c) at (0, s, c). -/
theorem dropBatch_apply (x0 : Vec Ideal S1x1024x128 .f32) (h : S1x1024x128.ShapeCasts S1024x128) (s : Fin 1024) (c : Fin 128) :
    shapeCast S1024x128 x0 h (ix2 s c) = x0 (ix3 (0 : Fin 1) s c) := by
  refine shapeCast_apply x0 h (ix2 s c) (ix3 (0 : Fin 1) s c) ?_
  rw [Shape.rowMajor_val_two, Shape.rowMajor_val_three]
  show ((0 : Nat) * 1024 + s.val) * 128 + c.val = s.val * 128 + c.val
  omega

/-- Entry (s, o) of the block the first body stores: the inner product of rows s and o of the loaded block. -/
theorem gramBlock_apply (x0 : Vec Ideal S1x1024x128 .f32) (s o : Fin 1024) :
    k0_pay1 (F := Ideal) x0 (ix3 (0 : Fin 1) s o) = ∑ c : Fin 128, x0 (ix3 (0 : Fin 1) s c) * x0 (ix3 (0 : Fin 1) o c) := by
  unfold k0_pay1
  refine (shapeCast_apply _ _ (ix3 (0 : Fin 1) s o) (ix2 s o) ?_).trans ?_
  · rw [Shape.rowMajor_val_two, Shape.rowMajor_val_three]
    show s.val * 1024 + o.val = ((0 : Nat) * 1024 + s.val) * 1024 + o.val
    omega
  refine (SideBySide.kernelProduct_apply _ rfl none _ _ s o).trans ?_
  unfold SideBySide.entry
  refine Finset.sum_congr rfl fun c _ => ?_
  refine congrArg₂ (· * ·) (dropBatch_apply x0 _ s c) ?_
  refine (transpose_apply [1, 0] _ _ (ix2 c o) (ix2 o c) (fun b => match b with
    | ⟨0, _⟩ => rfl
    | ⟨1, _⟩ => rfl)).trans ?_
  exact dropBatch_apply x0 _ o c

/-- Entry (p, r, o) of the block the second body stores: the Gram block's (p, o) entry times the relation block's (r, p, o) entry. -/
theorem scoreBlock_apply (x0 : Vec Ideal S1x64x1024 .f32) (x1 : Vec Ideal S32x64x1024 .f32) (p : Fin 64) (r : Fin 32) (o : Fin 1024) :
    k1_pay1 (F := Ideal) x0 x1 (ix4 (0 : Fin 1) p r o) = x0 (ix3 (0 : Fin 1) p o) * x1 (ix3 r p o) := by
  unfold k1_pay1
  refine (shapeCast_apply _ _ (ix4 (0 : Fin 1) p r o) (ix3 p r o) ?_).trans ?_
  · rw [Shape.rowMajor_val_three, Shape.rowMajor_val_four]
    show (p.val * 32 + r.val) * 1024 + o.val = ((((0 : Nat) * 64 + p.val) * 32 + r.val) * 1024 + o.val)
    omega
  refine congrArg₂ (· * ·) ?_ ?_
  · refine (broadcastTo_apply _ _ (ix3 p r o) (ix3 p (0 : Fin 1) o) (fun a => match a with
      | ⟨0, _⟩ => by show p.val = if (64 : Nat) = 1 then 0 else p.val; rw [if_neg (by decide)]
      | ⟨1, _⟩ => by show (0 : Nat) = if (1 : Nat) = 1 then 0 else r.val; rw [if_pos rfl]
      | ⟨2, _⟩ => by show o.val = if (1024 : Nat) = 1 then 0 else o.val; rw [if_neg (by decide)])).trans ?_
    refine (shapeCast_apply _ _ (ix3 p (0 : Fin 1) o) (ix2 p o) ?_).trans ?_
    · rw [Shape.rowMajor_val_two, Shape.rowMajor_val_three]
      show p.val * 1024 + o.val = (p.val * 1 + (0 : Nat)) * 1024 + o.val
      omega
    refine shapeCast_apply x0 _ (ix2 p o) (ix3 (0 : Fin 1) p o) ?_
    rw [Shape.rowMajor_val_two, Shape.rowMajor_val_three]
    show ((0 : Nat) * 64 + p.val) * 1024 + o.val = p.val * 1024 + o.val
    omega
  · exact transpose_apply [1, 0, 2] x1 _ (ix3 p r o) (ix3 r p o) (fun b => match b with
      | ⟨0, _⟩ => rfl
      | ⟨1, _⟩ => rfl
      | ⟨2, _⟩ => rfl)

end Cert.KernelIdeal.Hand

end
-- ==== Proof.Spec.lean ====
/-
  The RESCAL bilinear relation score, as one function of the two argument arrays over the extended reals.

  x is a [2, 1024, 128] array (batch, entity, feature) and R a [32, 1024, 1024] array (relation, subject, object).
  The Gram matrix of batch b is  G[b, s, o] = Σ_c x[b, s, c] · x[b, o, c],  a plain finite sum over the 128 features:
  addition on the extended reals is commutative and associative, so no order of summation is left in it, and nothing here
  asks that an entry be finite. The score is the Gram entry scaled by the relation tensor,
      out[b, s, r, o] = G[b, s, o] · R[r, s, o],
  the Gram factor on the left.
-/
import Idealize.ShloMosaic.PureOps.Ideal
import Idealize.ShloMosaic.Lib.ValueIdx

noncomputable section

namespace Rescal

open Idealize.ShloMosaic Idealize.ShloMosaic.ValueIdx

/-- Entry (b, s, o) of the Gram matrices: the inner product of entity s's and entity o's feature rows in batch b. -/
def gramAt (x : (⟨3, ![2, 1024, 128]⟩ : Shape).Idx → EReal) (b : Fin 2) (s o : Fin 1024) : EReal :=
  ∑ c : Fin 128, x (ix3 b s c) * x (ix3 b o c)

/-- The Gram matrices as an array: G[b, s, o] = Σ_c x[b, s, c] · x[b, o, c]. -/
def gram (x : (⟨3, ![2, 1024, 128]⟩ : Shape).Idx → EReal) : (⟨3, ![2, 1024, 1024]⟩ : Shape).Idx → EReal :=
  fun i => gramAt x (i 0) (i 1) (i 2)

/-- A [2, 1024, 1024] array g scaled by the relation tensor: out[b, s, r, o] = g[b, s, o] · R[r, s, o]. -/
def scale (g : (⟨3, ![2, 1024, 1024]⟩ : Shape).Idx → EReal) (R : (⟨3, ![32, 1024, 1024]⟩ : Shape).Idx → EReal) :
    (⟨4, ![2, 1024, 32, 1024]⟩ : Shape).Idx → EReal :=
  fun i => g (ix3 (i 0) (i 1) (i 3)) * R (ix3 (i 2) (i 1) (i 3))

/-- The relation scores: the Gram matrices scaled by the relation tensor. -/
def scores (x : (⟨3, ![2, 1024, 128]⟩ : Shape).Idx → EReal) (R : (⟨3, ![32, 1024, 1024]⟩ : Shape).Idx → EReal) :
    (⟨4, ![2, 1024, 32, 1024]⟩ : Shape).Idx → EReal :=
  scale (gram x) R

theorem gram_apply (x : (⟨3, ![2, 1024, 128]⟩ : Shape).Idx → EReal) (b : Fin 2) (s o : Fin 1024) :
    gram x (ix3 b s o) = gramAt x b s o := rfl

theorem scale_apply (g : (⟨3, ![2, 1024, 1024]⟩ : Shape).Idx → EReal) (R : (⟨3, ![32, 1024, 1024]⟩ : Shape).Idx → EReal)
    (b : Fin 2) (s : Fin 1024) (r : Fin 32) (o : Fin 1024) :
    scale g R (ix4 b s r o) = g (ix3 b s o) * R (ix3 r s o) := rfl

end Rescal

end
-- ==== Proof.GramArray.lean ====
/-
  After the first region, its output array is the Gram matrices of the array it read.

  The region's grid has one point per batch. Point b fetches batch b's [1, 1024, 128] block of the input array and writes back
  the [1, 1024, 1024] block b of the output; what it writes is the body's stored block, whose (s, o) entry is the inner product of
  rows s and o of the fetched block. So block b of the output is block b of the Gram array of the input, the two blocks tile the
  output, and the output ends as the Gram array, whatever the input array holds when the region is entered.
-/
import proofs.«171802_j15040975470743_1_alg».proof.Proof.Gen.KernelIdeal.Frame
import proofs.«171802_j15040975470743_1_alg».proof.Proof.Payload
import proofs.«171802_j15040975470743_1_alg».proof.Proof.Spec
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The two windows' block indices at a point: both move along the batch axis together and stay at zero on the others. -/
theorem gramIdx : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) < 2 :=
  (by decide +kernel : ∀ t : Fin grid0.N, _)

/-- Every batch is some point's. -/
theorem gramOnto : ∀ q : Fin 2, ∃ t : Fin cfg0.N, win0_1.index t = ![q.val, 0, 0] :=
  (by decide +kernel : ∀ q : Fin 2, ∃ t : Fin grid0.N, win0_1.index t = ![q.val, 0, 0])

/-- The fetched block at point t is batch b of the input array, b the point's batch. -/
theorem featBlock_apply (c : Dev nD) (t : Fin cfg0.N) (b : Fin 2) (hb : win0_1.index t (0 : Fin 3) = b.val) (s : Fin 1024) (k : Fin 128) :
    (iblk0 V c 0 t : Vec Ideal S1x1024x128 .f32) (ix3 (0 : Fin 1) s k) = (V c main_arg0 : S2x1024x128.Idx → EReal) (ix3 b s k) := by
  obtain ⟨e0, e1, e2, -, -, -⟩ := gramIdx t
  unfold iblk0
  rw [View.read_apply]
  show V c main_arg0 (((cfg0.win 0).blk t).view.emb (ix3 (0 : Fin 1) s k)) = V c main_arg0 (ix3 b s k)
  refine congrArg (V c main_arg0) ?_
  funext a; apply Fin.ext
  match a with
  | ⟨0, _⟩ => show win0_0.index t (0 : Fin 3) * 1 + 1 * (0 : Nat) = b.val; omega
  | ⟨1, _⟩ => show win0_0.index t (1 : Fin 3) * 1024 + 1 * s.val = s.val; omega
  | ⟨2, _⟩ => show win0_0.index t (2 : Fin 3) * 128 + 1 * k.val = k.val; omega

/-- What point t writes back is block t of the Gram array of the input array. -/
theorem gramFlushed (c : Dev nD) (t : Fin cfg0.N) :
    (dat0 V c).flushed 1 t = ((cfg0.win 1).blk t).view.read (Elt Ideal) (Rescal.gram (V c main_arg0)) := by
  show (cfg0.win 1).cut (grid0.coords t) ((dat0 V c).after 1 t) = _
  rw [after0_1]
  unfold out0_1
  rw [View.canon_unit_zero zeros3]
  simp only [View.ld_unit_zero (S := S1x1024x128) zeros3]
  obtain ⟨e0, e1, e2, e3, e4, e5⟩ := gramIdx t
  funext j
  obtain ⟨z, s, o, rfl⟩ : ∃ (z : Fin 1) (s o : Fin 1024), j = ix3 z s o := ⟨j 0, j 1, j 2, eq_ix3 j⟩
  obtain rfl : z = 0 := Subsingleton.elim _ _
  have hemb : ((cfg0.win 1).blk t).view.emb (ix3 (0 : Fin 1) s o) = ix3 (⟨win0_1.index t (0 : Fin 3), e5⟩ : Fin 2) s o := by
    funext a; apply Fin.ext
    match a with
    | ⟨0, _⟩ => show win0_1.index t (0 : Fin 3) * 1 + 1 * (0 : Nat) = win0_1.index t (0 : Fin 3); omega
    | ⟨1, _⟩ => show win0_1.index t (1 : Fin 3) * 1024 + 1 * s.val = s.val; omega
    | ⟨2, _⟩ => show win0_1.index t (2 : Fin 3) * 1024 + 1 * o.val = o.val; omega
  show k0_pay1 (iblk0 V c 0 t) (ix3 (0 : Fin 1) s o) = Rescal.gram (V c main_arg0) (((cfg0.win 1).blk t).view.emb (ix3 (0 : Fin 1) s o))
  rw [hemb, Rescal.gram_apply]
  refine (gramBlock_apply (iblk0 V c 0 t) s o).trans ?_
  unfold Rescal.gramAt
  refine Finset.sum_congr rfl fun k _ => ?_
  rw [featBlock_apply V c t ⟨_, e5⟩ rfl s k, featBlock_apply V c t ⟨_, e5⟩ rfl o k]

/-- An index of the output array is in point t's block iff each coordinate is in the block's range on its axis. -/
theorem gramMem (t : Fin cfg0.N) (i : S2x1024x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v0).slice (win0_1.rect t)).set ↔ _
  rw [View.set_slice_whole, Rect.mem_set_unit]
  exact Iff.rfl

/-- The blocks tile the output array: index (b, s, o) is in the block of the point whose batch is b. -/
theorem gramCover (i : S2x1024x1024.Idx) : ∃ t : Fin cfg0.N, (cfg0.win 1).flush t = true ∧ i ∈ ((cfg0.win 1).blk t).view.set := by
  have h0 : (i 0).val < 2 := (i 0).isLt
  have h1 : (i 1).val < 1024 := (i 1).isLt
  have h2 : (i 2).val < 1024 := (i 2).isLt
  obtain ⟨t, ht⟩ := gramOnto ⟨(i 0).val, h0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [gramMem]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The first region's output array after the region: the Gram array of its input array as the region found it. -/
theorem gramArray (c : Dev nD) : (dat0 V c).arrAt 1 cfg0.N = Rescal.gram (V c main_arg0) :=
  (dat0 V c).arrAt_eq_of_cover 1 (Rescal.gram (V c main_arg0)) (fun t _ => gramFlushed V c t) gramCover

end Cert.KernelIdeal.Hand

end
-- ==== Proof.ScoreArray.lean ====
/-
  After the second region, its output array is its first input array scaled by the relation tensor.

  The region's grid has a point per batch b and per tile σ of 64 subject rows. The point fetches rows 64σ … 64σ + 63 of batch b of
  the [2, 1024, 1024] input g, the same 64 subject rows of every relation of the [32, 1024, 1024] input R, and writes back the
  [1, 64, 32, 1024] block (b, σ) of the output; what it writes is the body's stored block, whose (p, r, o) entry is the g block's
  (p, o) entry times the R block's (r, p, o) entry. So block (b, σ) of the output is that block of  out[b, s, r, o] = g[b, s, o] · R[r, s, o],
  the 32 blocks tile the output, and the output ends as that array, whatever the two inputs hold when the region is entered.
-/
import proofs.«171802_j15040975470743_1_alg».proof.Proof.Gen.KernelIdeal.Frame
import proofs.«171802_j15040975470743_1_alg».proof.Proof.Payload
import proofs.«171802_j15040975470743_1_alg».proof.Proof.Spec
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The three windows' block indices at a point: the first input and the output move together along batch and subject tile,
    the relation input along the subject tile alone; every other block index is zero. -/
theorem scoreIdx : ∀ t : Fin cfg1.N,
    win1_0.index t (0 : Fin 3) = win1_2.index t (0 : Fin 4) ∧ win1_0.index t (1 : Fin 3) = win1_2.index t (1 : Fin 4)
    ∧ win1_0.index t (2 : Fin 3) = 0
    ∧ win1_1.index t (0 : Fin 3) = 0 ∧ win1_1.index t (1 : Fin 3) = win1_2.index t (1 : Fin 4) ∧ win1_1.index t (2 : Fin 3) = 0
    ∧ win1_2.index t (2 : Fin 4) = 0 ∧ win1_2.index t (3 : Fin 4) = 0
    ∧ win1_2.index t (0 : Fin 4) < 2 ∧ win1_2.index t (1 : Fin 4) < 16 :=
  (by decide +kernel : ∀ t : Fin grid1.N, _)

/-- Every batch and subject tile is some point's. -/
theorem scoreOnto : ∀ (q0 : Fin 2) (q1 : Fin 16), ∃ t : Fin cfg1.N, win1_2.index t = ![q0.val, q1.val, 0, 0] :=
  (by decide +kernel : ∀ (q0 : Fin 2) (q1 : Fin 16), ∃ t : Fin grid1.N, win1_2.index t = ![q0.val, q1.val, 0, 0])

/-- The first fetched block at point t: row p of the tile is subject row s = 64σ + p of batch b of the first input. -/
theorem gramTile_apply (c : Dev nD) (t : Fin cfg1.N) (b : Fin 2) (s : Fin 1024) (p : Fin 64) (o : Fin 1024)
    (hb : win1_2.index t (0 : Fin 4) = b.val) (hs : s.val = win1_2.index t (1 : Fin 4) * 64 + p.val) :
    (iblk1 V c 0 t : Vec Ideal S1x64x1024 .f32) (ix3 (0 : Fin 1) p o) = (V c main_v0 : S2x1024x1024.Idx → EReal) (ix3 b s o) := by
  obtain ⟨e0, e1, e2, -, -, -, -, -, -, -⟩ := scoreIdx t
  unfold iblk1
  rw [View.read_apply]
  show V c main_v0 (((cfg1.win 0).blk t).view.emb (ix3 (0 : Fin 1) p o)) = V c main_v0 (ix3 b s o)
  refine congrArg (V c main_v0) ?_
  funext a; apply Fin.ext
  match a with
  | ⟨0, _⟩ => show win1_0.index t (0 : Fin 3) * 1 + 1 * (0 : Nat) = b.val; omega
  | ⟨1, _⟩ => show win1_0.index t (1 : Fin 3) * 64 + 1 * p.val = s.val; omega
  | ⟨2, _⟩ => show win1_0.index t (2 : Fin 3) * 1024 + 1 * o.val = o.val; omega

/-- The second fetched block at point t: row p of the tile, for every relation, is subject row s = 64σ + p of the relation tensor. -/
theorem relTile_apply (c : Dev nD) (t : Fin cfg1.N) (s : Fin 1024) (r : Fin 32) (p : Fin 64) (o : Fin 1024)
    (hs : s.val = win1_2.index t (1 : Fin 4) * 64 + p.val) :
    (iblk1 V c 1 t : Vec Ideal S32x64x1024 .f32) (ix3 r p o) = (V c main_arg1 : S32x1024x1024.Idx → EReal) (ix3 r s o) := by
  obtain ⟨-, -, -, e3, e4, e5, -, -, -, -⟩ := scoreIdx t
  unfold iblk1
  rw [View.read_apply]
  show V c main_arg1 (((cfg1.win 1).blk t).view.emb (ix3 r p o)) = V c main_arg1 (ix3 r s o)
  refine congrArg (V c main_arg1) ?_
  funext a; apply Fin.ext
  match a with
  | ⟨0, _⟩ => show win1_1.index t (0 : Fin 3) * 32 + 1 * r.val = r.val; omega
  | ⟨1, _⟩ => show win1_1.index t (1 : Fin 3) * 64 + 1 * p.val = s.val; omega
  | ⟨2, _⟩ => show win1_1.index t (2 : Fin 3) * 1024 + 1 * o.val = o.val; omega

/-- What point t writes back is block t of the first input scaled by the relation tensor. -/
theorem scoreFlushed (c : Dev nD) (t : Fin cfg1.N) :
    (dat1 V c).flushed 2 t = ((cfg1.win 2).blk t).view.read (Elt Ideal) (Rescal.scale (V c main_v0) (V c main_arg1)) := by
  show (cfg1.win 2).cut (grid1.coords t) ((dat1 V c).after 2 t) = _
  rw [after1_2]
  unfold out1_2
  rw [View.canon_unit_zero zeros4]
  simp only [View.ld_unit_zero (S := S1x64x1024) zeros3, View.ld_unit_zero (S := S32x64x1024) zeros3]
  obtain ⟨e0, e1, e2, e3, e4, e5, e6, e7, e8, e9⟩ := scoreIdx t
  funext j
  obtain ⟨z, p, r, o, rfl⟩ : ∃ (z : Fin 1) (p : Fin 64) (r : Fin 32) (o : Fin 1024), j = ix4 z p r o :=
    ⟨j 0, j 1, j 2, j 3, eq_ix4 j⟩
  obtain rfl : z = 0 := Subsingleton.elim _ _
  have hs : win1_2.index t (1 : Fin 4) * 64 + p.val < 1024 := by have := p.isLt; omega
  have hemb : ((cfg1.win 2).blk t).view.emb (ix4 (0 : Fin 1) p r o)
      = ix4 (⟨win1_2.index t (0 : Fin 4), e8⟩ : Fin 2) (⟨win1_2.index t (1 : Fin 4) * 64 + p.val, hs⟩ : Fin 1024) r o := by
    funext a; apply Fin.ext
    match a with
    | ⟨0, _⟩ => show win1_2.index t (0 : Fin 4) * 1 + 1 * (0 : Nat) = win1_2.index t (0 : Fin 4); omega
    | ⟨1, _⟩ => show win1_2.index t (1 : Fin 4) * 64 + 1 * p.val = win1_2.index t (1 : Fin 4) * 64 + p.val; omega
    | ⟨2, _⟩ => show win1_2.index t (2 : Fin 4) * 32 + 1 * r.val = r.val; omega
    | ⟨3, _⟩ => show win1_2.index t (3 : Fin 4) * 1024 + 1 * o.val = o.val; omega
  show k1_pay1 (iblk1 V c 0 t) (iblk1 V c 1 t) (ix4 (0 : Fin 1) p r o)
    = Rescal.scale (V c main_v0) (V c main_arg1) (((cfg1.win 2).blk t).view.emb (ix4 (0 : Fin 1) p r o))
  rw [hemb, Rescal.scale_apply]
  refine (scoreBlock_apply (iblk1 V c 0 t) (iblk1 V c 1 t) p r o).trans ?_
  rw [gramTile_apply V c t ⟨_, e8⟩ ⟨_, hs⟩ p o rfl rfl, relTile_apply V c t ⟨_, hs⟩ r p o rfl]

/-- An index of the output array is in point t's block iff each coordinate is in the block's range on its axis. -/
theorem scoreMem (t : Fin cfg1.N) (i : S2x1024x32x1024.Idx) :
    i ∈ ((cfg1.win 2).blk t).view.set ↔ ∀ a : Fin 4, win1_2.index t a * S1x64x32x1024.size a ≤ (i a).val ∧ (i a).val < win1_2.index t a * S1x64x32x1024.size a + S1x64x32x1024.size a := by
  show i ∈ ((View.whole main_v1).slice (win1_2.rect t)).set ↔ _
  rw [View.set_slice_whole, Rect.mem_set_unit]
  exact Iff.rfl

/-- The blocks tile the output array: index (b, s, r, o) is in the block of the point of batch b and subject tile s / 64. -/
theorem scoreCover (i : S2x1024x32x1024.Idx) : ∃ t : Fin cfg1.N, (cfg1.win 2).flush t = true ∧ i ∈ ((cfg1.win 2).blk t).view.set := by
  have h0 : (i 0).val < 2 := (i 0).isLt
  have h1 : (i 1).val < 1024 := (i 1).isLt
  have h2 : (i 2).val < 32 := (i 2).isLt
  have h3 : (i 3).val < 1024 := (i 3).isLt
  obtain ⟨t, ht⟩ := scoreOnto ⟨(i 0).val, h0⟩ ⟨(i 1).val / 64, by omega⟩
  have q0 : win1_2.index t (0 : Fin 4) = (i 0).val := congrFun ht 0
  have q1 : win1_2.index t (1 : Fin 4) = (i 1).val / 64 := congrFun ht 1
  have q2 : win1_2.index t (2 : Fin 4) = 0 := congrFun ht 2
  have q3 : win1_2.index t (3 : Fin 4) = 0 := congrFun ht 3
  refine ⟨t, flush1_2 t, ?_⟩
  rw [scoreMem]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 64 ≤ (i 1).val ∧ (i 1).val < win1_2.index t (1 : Fin 4) * 64 + 64; omega
  | ⟨2, _⟩ => show win1_2.index t (2 : Fin 4) * 32 ≤ (i 2).val ∧ (i 2).val < win1_2.index t (2 : Fin 4) * 32 + 32; omega
  | ⟨3, _⟩ => show win1_2.index t (3 : Fin 4) * 1024 ≤ (i 3).val ∧ (i 3).val < win1_2.index t (3 : Fin 4) * 1024 + 1024; omega

/-- The second region's output array after the region: its first input scaled by the relation tensor, both as the region found them. -/
theorem scoreArray (c : Dev nD) : (dat1 V c).arrAt 2 cfg1.N = Rescal.scale (V c main_v0) (V c main_arg1) :=
  (dat1 V c).arrAt_eq_of_cover 2 (Rescal.scale (V c main_v0) (V c main_arg1)) (fun t _ => scoreFlushed V c t) scoreCover

end Cert.KernelIdeal.Hand

end
-- ==== Proof.KernelValue.lean ====
/-
  The kernel's result array, as a function of the two launched arguments.

  The second region is entered with the array main_v0 holding what the first region left — the Gram array of the launched x,
  since the first region found x as launched — and with the relation tensor as launched, since the first region does not touch
  it. The second region leaves in main_v1 its first input scaled by the relation tensor. So @main ends with main_v1 holding
  out[b, s, r, o] = (Σ_c x[b, s, c] · x[b, o, c]) · R[r, s, o], the relation scores of the launched arguments.
-/
import proofs.«171802_j15040975470743_1_alg».proof.Proof.KernelRun
import proofs.«171802_j15040975470743_1_alg».proof.Proof.GramArray
import proofs.«171802_j15040975470743_1_alg».proof.Proof.ScoreArray

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- When the second region is entered, main_v0 holds the Gram array of the launched x. -/
theorem entry_gram (c : Dev nD) : V1 m ρ c main_v0 = Rescal.gram (m ((c.tc : Thread nD τ).loc main_arg0)) :=
  (W1_arr m ρ c 1).trans (gramArray (V0 m ρ) c)

/-- When the second region is entered, the relation tensor is as launched. -/
theorem entry_rel (c : Dev nD) : V1 m ρ c main_arg1 = m ((c.tc : Thread nD τ).loc main_arg1) :=
  W1_of_ne m ρ c main_arg1 (by decide)

/-- What the last boundary's contents hold at the result array: the relation scores of the launched arguments. -/
theorem result_eq (c : Dev nD) :
    W2 m ρ c (Proc.devRef .tc main_v1)
      = Rescal.scores (m ((c.tc : Thread nD τ).loc main_arg0)) (m ((c.tc : Thread nD τ).loc main_arg1)) := by
  refine ((W2_arr m ρ c 2).trans (scoreArray (V1 m ρ) c)).trans ?_
  rw [entry_gram m ρ c, entry_rel m ρ c]
  rfl

/-- The idealized kernel's run: every weakly fair execution terminates, nothing faulting, with the result array at the relation
    scores of the launched arguments and the arguments unchanged. -/
theorem run : θ_run defs (onTc (τ := τ) (main (F := Ideal))) ⟨m, fun _ => 0, ρ⟩ (fun r => ∀ c : Dev nD,
      r.2.mem ((c.tc : Thread nD τ).loc main_v1)
        = Rescal.scores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Cert.KernelIdeal.Named.run_named m ρ)

end Cert.KernelIdeal.Hand

end
-- ==== Proof.Reference.lean ====
/-
  The reference computes the relation scores.

  Its seven host operations are: the batched product of x with itself contracting the feature axis (entry (b, s, o) is
  Σ_c x[b, s, c] · x[b, o, c]), that array repeated along a new relation axis, the relation tensor with its relation and
  subject axes swapped and repeated over the batch, and their elementwise product, the Gram factor on the left. Read at
  (b, s, r, o), one operation at a time, that is  (Σ_c x[b, s, c] · x[b, o, c]) · R[r, s, o].
-/
import proofs.«171802_j15040975470743_1_alg».proof.Proof.Gen.ReferenceIdeal.Read
import proofs.«171802_j15040975470743_1_alg».proof.Proof.Spec

noncomputable section

namespace Cert.ReferenceIdeal.Hand

open Idealize.ShloMosaic Idealize.ShloMosaic.ValueIdx Cert.ReferenceIdeal Cert.ReferenceIdeal.Read

/-- The last stage of the reference, as a function of its two arguments, is the score array. -/
theorem result_eq (x0 : (⟨S2x1024x128, .f32⟩ : BufTy).Contents (Elt Ideal)) (x1 : (⟨S32x1024x1024, .f32⟩ : BufTy).Contents (Elt Ideal)) :
    val_main_v6 (F := Ideal) x0 x1 = Rescal.scores x0 x1 := by
  funext i
  obtain ⟨b, s, r, o, rfl⟩ : ∃ (b : Fin 2) (s : Fin 1024) (r : Fin 32) (o : Fin 1024), i = ix4 b s r o :=
    ⟨i 0, i 1, i 2, i 3, eq_ix4 i⟩
  have el : ∀ k : Fin 128, lidx_main_v0 (idx_main_v1 (idx_main_v4 (ix4 b s r o))) k = ix3 b s k := fun k =>
    funext fun a => by match a with | ⟨0, _⟩ => rfl | ⟨1, _⟩ => rfl | ⟨2, _⟩ => rfl
  have er : ∀ k : Fin 128, ridx_main_v0 (idx_main_v1 (idx_main_v4 (ix4 b s r o))) k = ix3 b o k := fun k =>
    funext fun a => by match a with | ⟨0, _⟩ => rfl | ⟨1, _⟩ => rfl | ⟨2, _⟩ => rfl
  have eR : idx_main_v2 (idx_main_v3 (idx_main_v5 (ix4 b s r o))) = ix3 r s o :=
    funext fun a => by match a with | ⟨0, _⟩ => rfl | ⟨1, _⟩ => rfl | ⟨2, _⟩ => rfl
  rw [val_main_v6_apply, val_main_v4_apply, val_main_v1_apply, val_main_v0_apply, val_main_v5_apply, val_main_v3_apply,
    val_main_v2_apply]
  simp only [el, er, eR]
  rfl

end Cert.ReferenceIdeal.Hand

end
-- ==== Proof.lean ====
/-
  The RESCAL relation-score kernel against its jnp reference, over the extended reals.

  Both programs compute  out[b, s, r, o] = (Σ_c x[b, s, c] · x[b, o, c]) · R[r, s, o].  The kernel does it in two regions: the
  first forms each batch's Gram matrix on the matrix unit as A·Aᵀ accumulated into a zero block, the second scales 64-row tiles
  of it by the matching rows of every relation, swapping the relation and subject axes on the way. The reference forms the Gram
  matrices by one batched product contracting the feature axis and multiplies by the relation tensor with those two axes swapped.
  The two Gram entries are the same finite sum over the 128 features, and the two products take their factors in the same
  order, so no law of arithmetic beyond reading each side at an index is used, and the inputs' finiteness is never opened.
  The idealization rewrote no operation, so the kernel's idealized text is its own text read over the extended reals.
-/
import proofs.«171802_j15040975470743_1_alg».proof.Defs
import proofs.«171802_j15040975470743_1_alg».proof.Proof.Gen.Kernel
import proofs.«171802_j15040975470743_1_alg».proof.Proof.Gen.Kernel.Skeleton
import proofs.«171802_j15040975470743_1_alg».proof.Proof.Gen.Kernel.Launch
import proofs.«171802_j15040975470743_1_alg».proof.Proof.Gen.Kernel.Points
import proofs.«171802_j15040975470743_1_alg».proof.Proof.Gen.Kernel.Frame
import proofs.«171802_j15040975470743_1_alg».proof.Proof.Gen.KernelIdeal
import proofs.«171802_j15040975470743_1_alg».proof.Proof.Gen.KernelIdeal.Skeleton
import proofs.«171802_j15040975470743_1_alg».proof.Proof.Gen.KernelIdeal.Launch
import proofs.«171802_j15040975470743_1_alg».proof.Proof.Gen.KernelIdeal.Points
import proofs.«171802_j15040975470743_1_alg».proof.Proof.Gen.KernelIdeal.Frame
import proofs.«171802_j15040975470743_1_alg».proof.Proof.Gen.ReferenceIdeal
import proofs.«171802_j15040975470743_1_alg».proof.Proof.Gen.Pre_finite_inputs
import proofs.«171802_j15040975470743_1_alg».proof.Proof.Gen.ReferenceIdeal.Run
import proofs.«171802_j15040975470743_1_alg».proof.Proof.Gen.ReferenceIdeal.Read
import proofs.«171802_j15040975470743_1_alg».proof.Proof.KernelValue
import proofs.«171802_j15040975470743_1_alg».proof.Proof.Reference
import Idealize.ShloMosaic.Adequacy
import Idealize.ShloMosaic.Init

noncomputable section

namespace Cert.Proof

open Idealize.ShloMosaic Idealize.SL.Sem Cert.Kernel

/-- Both idealized programs, from memories agreeing on the arguments, end with the result array at the relation scores of the
    arguments: the kernel by its two regions' arrays, the reference by its operations read at an index. -/
theorem algebraic : Cert.algebraic_KernelIdeal_ReferenceIdeal := by
  intro m ρ m' ρ' _ hagree
  refine ⟨fun c => Rescal.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Hand.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
